-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x512 : Shape := ⟨3, ![16, 4096, 512]⟩
abbrev S16 : Shape := ⟨1, ![16]⟩
abbrev S_ : Shape := ⟨0, ![]⟩

class Facts : Prop where
  bcast_S_S16x4096x512 : S_.BroadcastsInDim S16x4096x512 (![] : Fin 0 → Fin S16x4096x512.rank)
  reducesTo_S16x4096x512_S_d0_1_2 : S16x4096x512.ReducesTo [0, 1, 2] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x4096x512 .f32) (main_arg1 : IVec S16 32) (main_arg2 : FVec F S16 .f32) (main_arg3 : FVec F S16 .f32) : IVec S_ 1 :=
  let main_v0 : FVec F S16x4096x512 .f32 := Host.absf main_arg0
  let main_cst : FVec F S_ .f32 := constant S_ .f32 0x7F800000#32
  let main_v1 : FVec F S16x4096x512 .f32 := broadcastInDim S16x4096x512 ![] bcast_S_S16x4096x512 main_cst
  let main_v2 : IVec S16x4096x512 1 := cmpf .olt main_v0 main_v1
  let main_c : IVec S_ 1 := constantI S_ 1 1#1
  let main_v3 : IVec S_ 1 := (fun x v => Host.reduce IntOp.andi x v reducesTo_S16x4096x512_S_d0_1_2 h_S_) main_v2 main_c
  let main_v4 : FVec F S16 .f32 := Host.absf main_arg2
  let main_cst_0 : FVec F S_ .f32 := constant S_ .f32 0x7F800000#32
  let main_v5 : FVec F S16 .f32 := broadcastInDim S16 ![] bcast_S_S16 main_cst_0
  let main_v6 : IVec S16 1 := cmpf .olt main_v4 main_v5
  let main_c_1 : IVec S_ 1 := constantI S_ 1 1#1
  let main_v7 : IVec S_ 1 := (fun x v => Host.reduce IntOp.andi x v reducesTo_S16_S_d0 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S16x4096x512 : Shape := ⟨3, ![16, 4096, 512]⟩
abbrev S16 : Shape := ⟨1, ![16]⟩
abbrev S_ : Shape := ⟨0, ![]⟩
abbrev S1x1024x512 : Shape := ⟨3, ![1, 1024, 512]⟩
abbrev S1024x512 : Shape := ⟨2, ![1024, 512]⟩
abbrev S1 : Shape := ⟨1, ![1]⟩

abbrev nBuf : Space → Nat
  | .hbm => 40
  | .vmem => 4
  | .smem => 2
  | _ => 0

abbrev bufTy : (tb : Table) → Fin (tcTables nBuf tb) → BufTy
  | .hbm, ⟨0, _⟩ => ⟨S16x4096x512, .f32⟩
  | .hbm, ⟨1, _⟩ => ⟨S16, .i32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .f32⟩
  | .hbm, ⟨24, _⟩ => ⟨S16, .f32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S_, .i32⟩
  | .hbm, ⟨30, _⟩ => ⟨S16, .i32⟩
  | .hbm, ⟨31, _⟩ => ⟨S16, .i1⟩
  | .hbm, ⟨32, _⟩ => ⟨S_, .f32⟩
  | .hbm, ⟨33, _⟩ => ⟨S16, .f32⟩
  | .hbm, ⟨34, _⟩ => ⟨S16, .i1⟩
  | .hbm, ⟨35, _⟩ => ⟨S16, .i1⟩
  | .hbm, ⟨36, _⟩ => ⟨S_, .i32⟩
  | .hbm, ⟨37, _⟩ => ⟨S16, .i32⟩
  | .hbm, ⟨38, _⟩ => ⟨S16, .i32⟩
  | .hbm, ⟨39, _⟩ => ⟨S16x4096x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .smem, ⟨0, _⟩ => ⟨S16, .i32⟩
  | .local _ .smem, ⟨1, _⟩ => ⟨S16, .i32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_6 : Ref sig .tc := ⟨.hbm, 36, rfl⟩
abbrev main_v25 : Ref sig .tc := ⟨.hbm, 37, rfl⟩
abbrev main_v26 : Ref sig .tc := ⟨.hbm, 38, rfl⟩
abbrev main_v28 : Ref sig .tc := ⟨.hbm, 39, rfl⟩
abbrev main_v19 : Ref sig .tc := ⟨.smem, 0, rfl⟩
abbrev main_v27 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 4], ![false, false]⟩

abbrev pre0 : Pipeline.Prefetch sig := ⟨2, ![main_v19.idx, main_v27.idx], fun | 0 => main_v19.names | 1 => main_v27.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v4 : Index := Scalar.indexCast arg0
  ![v4.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  bcast_S_S16 : S_.BroadcastsInDim S16 (![] : Fin 0 → Fin S16.rank)
  iota_S1024x512_d0_w32 : S1024x512.Iotas .tc 32 [0]
  numel1_S1 : S1.numel = 1
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x4096x512.size a
  hwx0_0 : ∀ i : grid0.Coords, EltTy.bits .f32 = 32 ∨ (Rect.block (s := S16x4096x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x4096x512.size a
  hwx0_1 : ∀ i : grid0.Coords, EltTy.bits .f32 = 32 ∨ (Rect.block (s := S16x4096x512) S1x1024x512.size (cc0_transform_1 i) (hinb0_1 i)).WholeWords (EltTy.packing .f32)

variable [Facts₀]

abbrev spec0_0 : Pipeline.WinSpec sig grid0.rank :=
  Pipeline.WinSpec.ofSpec (Memref.whole main_arg0) S1x1024x512.size reads0_0 false false 2 stage0_0 sem0_0 nbuf0_0 hstage0_0

abbrev spec0_1 : Pipeline.WinSpec sig grid0.rank :=
  Pipeline.WinSpec.ofSpec (Memref.whole main_v28) S1x1024x512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16x4096x512 : Shape := ⟨3, ![16, 4096, 512]⟩
abbrev S16 : Shape := ⟨1, ![16]⟩
abbrev S_ : Shape := ⟨0, ![]⟩
abbrev S4096 : Shape := ⟨1, ![4096]⟩
abbrev S16x1 : Shape := ⟨2, ![16, 1]⟩
abbrev S1x4096 : Shape := ⟨2, ![1, 4096]⟩
abbrev S16x4096 : Shape := ⟨2, ![16, 4096]⟩
abbrev S16x4096x1 : Shape := ⟨3, ![16, 4096, 1]⟩

abbrev nBuf : Space → Nat
  | .hbm => 58
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16, .i32⟩
  | .hbm, ⟨2, _⟩ => ⟨S16, .f32⟩
  | .hbm, ⟨3, _⟩ => ⟨S16, .f32⟩
  | .hbm, ⟨4, _⟩ => ⟨S16, .f32⟩
  | .hbm, ⟨5, _⟩ => ⟨S_, .f32⟩
  | .hbm, ⟨6, _⟩ => ⟨S16, .f32⟩
  | .hbm, ⟨7, _⟩ => ⟨S16, .f32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S16, .i32⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S_, .i32⟩
  | .hbm, ⟨21, _⟩ => ⟨S16, .i32⟩
  | .hbm, ⟨22, _⟩ => ⟨S16, .i32⟩
  | .hbm, ⟨23, _⟩ => ⟨S16, .f32⟩
  | .hbm, ⟨24, _⟩ => ⟨S16, .f32⟩
  | .hbm, ⟨25, _⟩ => ⟨S16, .i32⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S_, .i32⟩
  | .hbm, ⟨31, _⟩ => ⟨S16, .i32⟩
  | .hbm, ⟨32, _⟩ => ⟨S16, .i1⟩
  | .hbm, ⟨33, _⟩ => ⟨S_, .f32⟩
  | .hbm, ⟨34, _⟩ => ⟨S16, .f32⟩
  | .hbm, ⟨35, _⟩ => ⟨S16, .i1⟩
  | .hbm, ⟨36, _⟩ => ⟨S16, .i1⟩
  | .hbm, ⟨37, _⟩ => ⟨S4096, .i32⟩
  | .hbm, ⟨38, _⟩ => ⟨S16x1, .i1⟩
  | .hbm, ⟨39, _⟩ => ⟨S1x4096, .i32⟩
  | .hbm, ⟨40, _⟩ => ⟨S16x1, .i32⟩
  | .hbm, ⟨41, _⟩ => ⟨S16x4096, .i32⟩
  | .hbm, ⟨42, _⟩ => ⟨S16x4096, .i32⟩
  | .hbm, ⟨43, _⟩ => ⟨S16x4096, .i1⟩
  | .hbm, ⟨44, _⟩ => ⟨S16x4096, .i1⟩
  | .hbm, ⟨45, _⟩ => ⟨S16x4096, .i1⟩
  | .hbm, ⟨46, _⟩ => ⟨S1x4096, .i32⟩
  | .hbm, ⟨47, _⟩ => ⟨S16, .i32⟩
  | .hbm, ⟨48, _⟩ => ⟨S16x1, .i32⟩
  | .hbm, ⟨49, _⟩ => ⟨S16x4096, .i32⟩
  | .hbm, ⟨50, _⟩ => ⟨S16x4096, .i32⟩
  | .hbm, ⟨51, _⟩ => ⟨S16x4096, .i1⟩
  | .hbm, ⟨52, _⟩ => ⟨S16x4096, .i1⟩
  | .hbm, ⟨53, _⟩ => ⟨S16x4096x1, .i1⟩
  | .hbm, ⟨54, _⟩ => ⟨S_, .f32⟩
  | .hbm, ⟨55, _⟩ => ⟨S16x4096x512, .i1⟩
  | .hbm, ⟨56, _⟩ => ⟨S16x4096x512, .f32⟩
  | .hbm, ⟨57, _⟩ => ⟨S16x4096x512, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S4096_S1x4096_1 : S4096.BroadcastsInDim S1x4096 (![1] : Fin 1 → Fin S1x4096.rank)
  bcast_S1x4096_S16x4096_0_1 : S1x4096.BroadcastsInDim S16x4096 (![0, 1] : Fin 2 → Fin S16x4096.rank)
  bcast_S16x1_S16x4096_0_1 : S16x1.BroadcastsInDim S16x4096 (![0, 1] : Fin 2 → Fin S16x4096.rank)
  bcast_S16x4096_S16x4096x1_0_1 : S16x4096.BroadcastsInDim S16x4096x1 (![0, 1] : Fin 2 → Fin S16x4096x1.rank)
  bcast_S16x4096x1_S16x4096x512_0_1_2 : S16x4096x1.BroadcastsInDim S16x4096x512 (![0, 1, 2] : Fin 3 → Fin S16x4096x512.rank)
  bcast_S_S16x4096x512 : S_.BroadcastsInDim S16x4096x512 (![] : Fin 0 → Fin S16x4096x512.rank)

variable [Facts₀]

class Facts : Prop extends Facts₀ where

variable [Facts]
-- ==== Proof.WindowMask.lean ====
/-
  The one law this certificate rests on, stated on 32-bit machine words.

  The kernel zeroes time step `t` of a row when `start ≤ t < start + len'`, where `len'` is the segment
  length `len` if the row is selected (`ap = 1`) and `0` otherwise. The reference zeroes it when the row is
  selected AND `start ≤ t < start + len`. For a selected row the two conditions are the same words. For a row
  that is not selected the kernel's window is `start ≤ t < start + 0 = start`, which no `t` satisfies (signed
  `≥` and signed `<` against one bound exclude each other), and the reference's condition carries the factor
  `ap = 0`. Both sides form `start + ·` with the same wrapping addition, so nothing is assumed of the sizes.
-/
import Idealize.ShloMosaic.PureOps

namespace Cert.TimeMask

open Idealize.ShloMosaic

/-- Signed `t ≥ s` and signed `t < s` never hold together: the conjunction of the two compare bits is `0`. -/
theorem sge_andi_slt_self (t s : BitVec 32) :
    IntOp.andi (IntOp.cmpi .sge t s) (IntOp.cmpi .slt t s) = 0#1 := by
  unfold IntOp.andi IntOp.cmpi
  simp only [BitVec.sle, BitVec.slt]
  by_cases h : s.toInt ≤ t.toInt
  · have h' : ¬ t.toInt < s.toInt := by omega
    simp [h, h']
  · simp [h]

/-- The kernel's window bit equals the reference's: `t ∈ [st, st + (ap ? len : 0))` iff `ap ∧ t ∈ [st, st + len)`. -/
theorem window_bit_eq (t st len : BitVec 32) (ap : BitVec 1) :
    IntOp.andi (IntOp.cmpi .sge t st) (IntOp.cmpi .slt t (IntOp.addi st (Scalar.select ap len 0#32)))
      = IntOp.andi (IntOp.andi ap (IntOp.cmpi .sge t st)) (IntOp.cmpi .slt t (IntOp.addi st len)) := by
  rcases BitVec.eq_zero_or_eq_one ap with h | h
  · subst h
    have e0 : Scalar.select (0#1) len 0#32 = 0#32 := by simp [Scalar.select]
    have e1 : IntOp.addi st 0#32 = st := by simp [IntOp.addi]
    rw [e0, e1, sge_andi_slt_self]
    simp [IntOp.andi]
  · subst h
    have e0 : Scalar.select (1#1) len 0#32 = len := by simp [Scalar.select]
    rw [e0]
    have e1 : ∀ x : BitVec 1, IntOp.andi (1#1) x = x := by
      intro x; rcases BitVec.eq_zero_or_eq_one x with hx | hx <;> subst hx <;> decide
    rw [e1]

end Cert.TimeMask
-- ==== Proof.BodyValue.lean ====
/-
  What the kernel's result array holds after the run, as ONE function of the argument array and of the two
  prefetched tables.

  The grid is 16 rows × 4 time tiles. At point (b, k) the body loads row b's two table words `st`, `en`, builds
  the time index `k·1024 + r` of each of the tile's 1024 steps (the tile's base word plus the row iota), and stores
  `0` where `st ≤ t < en` (signed) and the input element elsewhere. The output block of point (b, k) is block
  (b, k, 0) of the result array, and the input block read there is the same block of `x`. So every point writes
  back its block of the whole-array function

      masked x st en (b, t, d) = if st b ≤ t < en b then 0 else x (b, t, d),

  and since the 64 blocks tile the array (the step `t` of row `b` lies in tile `t / 1024`), the array ends
  holding `masked x st en`.
-/
import proofs.«415380_j40853728920175_1_alg».proof.Proof.Gen.KernelIdeal.Frame
import Idealize.ShloMosaic.Lib.Pipeline.Value
import Idealize.ShloMosaic.Lib.ValueIdx
import Idealize.ShloMosaic.Lib.ValueLayout
import Idealize.ShloMosaic.Lib.Tactic

set_option maxRecDepth 16384

noncomputable section
open Idealize.ShloMosaic Idealize.ShloMosaic.TcCoe Idealize.SL.Sem Idealize.ShloMosaic.Tactic
open Idealize.ShloMosaic.ValueIdx
open Idealize.ShloMosaic.Pipeline (Dat)
namespace Cert.KernelIdeal.BodyValue
open Cert.KernelIdeal Cert.KernelIdeal.Gen
variable {F : FTy → Type} [FloatOps F]

/-- The zero offsets of the body's whole-block load and store. -/
theorem hz : (![0, 0, 0] : Fin 3 → Nat) = fun _ => 0 := funext fun a => by fin_cases a <;> rfl

/-- The time index of step `r` of tile `a` as a word: the tile's base `a · 1024` plus the row iota `r` is the word of
    `a · 1024 + r` (no wrap: the sum is below 4096). -/
theorem step_word (a r : Nat) (ha : a < 4) (hr : r < 1024) :
    IntOp.addi (Scalar.muli (BitVec.ofNat 32 a) 1024#32) (BitVec.ofNat 32 (0 * 1024 + r)) = BitVec.ofNat 32 (a * 1024 + r) := by
  apply BitVec.eq_of_toNat_eq
  simp only [IntOp.addi, Scalar.muli, IntOp.muli, BitVec.toNat_add, BitVec.toNat_mul, BitVec.toNat_ofNat]
  omega

/-- The stored block at step `r`, lane `l`: `0` where the step's time index lies in the signed window `[w0, w1)`
    of the row's two table words, the loaded element otherwise. The two unit-axis casts only rename the index. -/
theorem pay_apply (i : grid0.Coords) (w0 w1 : BitVec 32) (x : Vec F S1x1024x512 .f32) (u : Fin 1) (r : Fin 1024) (l : Fin 512) :
    k0_pay1 (F := F) i w0 w1 x (ix3 u r l)
      = Scalar.select (IntOp.andi (IntOp.cmpi .sge (BitVec.ofNat 32 ((i 1).val * 1024 + r.val)) w0)
          (IntOp.cmpi .slt (BitVec.ofNat 32 ((i 1).val * 1024 + r.val)) w1))
          (FloatOps.ofBits .f32 0x00000000#32) (x (ix3 (0 : Fin 1) r l)) := by
  unfold k0_pay1
  refine (shapeCast_ab_1ab_apply _ _ u r l).trans ?_
  show Scalar.select (IntOp.andi
      (IntOp.cmpi .sge (IntOp.addi (Scalar.muli (BitVec.ofNat 32 (i 1).val) 1024#32) (BitVec.ofNat 32 (0 * 1024 + r.val))) w0)
      (IntOp.cmpi .slt (IntOp.addi (Scalar.muli (BitVec.ofNat 32 (i 1).val) 1024#32) (BitVec.ofNat 32 (0 * 1024 + r.val))) w1))
      (FloatOps.ofBits .f32 0x00000000#32) (shapeCast S1024x512 x shapeCasts_S1x1024x512_S1024x512 (ix2 r l)) = _
  rw [step_word _ _ (i 1).isLt r.isLt, shapeCast_1ab_ab_apply]

/-- A one-word load of the first table at offset `b` reads the table's entry `b`. -/
theorem smem_word (c : Dev nD) (xt : TbBuf0 (F := F) c tbM0_0) (off : Fin 1 → Nat) (inb : ∀ a, off a + S1.size a ≤ S16.size a)
    (h : 0 < (Rect.unit (s := S16) off S1.size inb).shape.numel) (b : Fin 16) (hb : off 0 = b.val) :
    View.readAt (Elt F) tbM0_0.view (Rect.unit (s := S16) off S1.size inb).toLoadRect xt (Shape.Idx.first h) = xt (ix1 b) := by
  show xt ((Rect.unit (s := S16) off S1.size inb).emb _) = xt _
  congr 1
  funext a
  match a with
  | ⟨0, _⟩ => apply Fin.ext; show off 0 + 1 * 0 = b.val; omega

/-- The same for the second table. -/
theorem smem_word' (c : Dev nD) (xt : TbBuf0 (F := F) c tbM0_1) (off : Fin 1 → Nat) (inb : ∀ a, off a + S1.size a ≤ S16.size a)
    (h : 0 < (Rect.unit (s := S16) off S1.size inb).shape.numel) (b : Fin 16) (hb : off 0 = b.val) :
    View.readAt (Elt F) tbM0_1.view (Rect.unit (s := S16) off S1.size inb).toLoadRect xt (Shape.Idx.first h) = xt (ix1 b) := by
  show xt ((Rect.unit (s := S16) off S1.size inb).emb _) = xt _
  congr 1
  funext a
  match a with
  | ⟨0, _⟩ => apply Fin.ext; show off 0 + 1 * 0 = b.val; omega

/-- The table offset the body computes at a grid point is the point's row coordinate (a number below 16 survives
    the round trip through a 32-bit word). -/
theorem off_row (i : grid0.Coords) : k0_off1 i 0 = (i 0).val := by
  show (BitVec.ofNat 32 (i 0).val).toNat = (i 0).val
  have : (i 0).val < 16 := (i 0).isLt
  simp only [BitVec.toNat_ofNat]; omega

/-- What the body leaves in the output's staging buffer: its one covering store's value, computed from the row's
    two table words and the input block. (The body's read-back of the output buffer does not enter the value.) -/
theorem out_eq (c : Dev nD) (i : grid0.Coords) (a4 : Memref sig .tc .vmem S1x1024x512 .f32) (h4 : a4.IsWhole)
    (a5 : Memref sig .tc .vmem S1x1024x512 .f32) (h5 : a5.IsWhole) (x0 : Vec F S1x1024x512 .f32)
    (xt0 : TbBuf0 (F := F) c tbM0_0) (xt1 : TbBuf0 (F := F) c tbM0_1) :
    out0_A_1 c i a4 h4 a5 h5 x0 xt0 xt1 = k0_pay1 i (xt0 (ix1 (n := 16) (i 0))) (xt1 (ix1 (n := 16) (i 0))) x0 := by
  unfold out0_A_1
  rw [View.read_writes_eq_canon _ _ _ (cover0_A_1 c i a4 h4 a5 h5 x0 xt0 xt1)]
  unfold kernelRun0_A
  dsimp only
  sl_unfold_words
  rw [View.canon_unit_zero hz]
  refine congr (congr (congrArg (k0_pay1 i) ?_) ?_) ?_
  · exact smem_word c xt0 _ _ _ (i 0) (off_row i)
  · exact smem_word' c xt1 _ _ _ (i 0) (off_row i)
  · simp only [View.readAt_eq_ld, h4.read_unread, View.ld_unit_zero (S := S1x1024x512) hz]

/-! ## From blocks to the array -/

variable (m : (ℓ : Loc nD τ sig) → Buf (Elt F) ℓ) (ρ : Dev nD → PrngReg)

/-- The whole-array function: element `(b, t, d)` is `0` when `st b ≤ t < en b` as signed words, `x (b, t, d)` otherwise. -/
def masked (x : Vec F S16x4096x512 .f32) (st en : IVec S16 32) : Vec F S16x4096x512 .f32 :=
  fun j => Scalar.select (IntOp.andi (IntOp.cmpi .sge (BitVec.ofNat 32 (j 1).val) (st (ix1 (n := 16) (j 0))))
      (IntOp.cmpi .slt (BitVec.ofNat 32 (j 1).val) (en (ix1 (n := 16) (j 0)))))
    (FloatOps.ofBits .f32 0x00000000#32) (x j)

/-- Both windows' block index at a grid point is (row, tile, 0): decided over the 64 points. -/
theorem index_facts : ∀ t : Fin grid0.N,
    cc0_transform_0 (grid0.coords t) 0 = (grid0.coords t 0).val ∧ cc0_transform_0 (grid0.coords t) 1 = (grid0.coords t 1).val
    ∧ cc0_transform_0 (grid0.coords t) 2 = 0
    ∧ cc0_transform_1 (grid0.coords t) 0 = (grid0.coords t 0).val ∧ cc0_transform_1 (grid0.coords t) 1 = (grid0.coords t 1).val
    ∧ cc0_transform_1 (grid0.coords t) 2 = 0 := by decide +kernel

/-- One stored element is the whole-array function at the array index it lands on: when that index's row is the
    point's row, its time step is `tile · 1024 + r`, and the input block's element there is `X` at the same index. -/
theorem point_value (c : Dev nD) (i : grid0.Coords) (a4 : Memref sig .tc .vmem S1x1024x512 .f32) (h4 : a4.IsWhole)
    (a5 : Memref sig .tc .vmem S1x1024x512 .f32) (h5 : a5.IsWhole) (x0 : Vec F S1x1024x512 .f32)
    (xt0 : TbBuf0 (F := F) c tbM0_0) (xt1 : TbBuf0 (F := F) c tbM0_1) (X : Vec F S16x4096x512 .f32)
    (y : S1x1024x512.Idx) (j : S16x4096x512.Idx)
    (hj0 : (j 0).val = (i 0).val) (hj1 : (j 1).val = (i 1).val * 1024 + (y 1).val)
    (hx : x0 (ix3 (0 : Fin 1) (y 1) (y 2)) = X j) :
    out0_A_1 c i a4 h4 a5 h5 x0 xt0 xt1 y = masked X xt0 xt1 j := by
  rw [out_eq, eq_ix3 y]
  refine (pay_apply i _ _ x0 (y 0) (y 1) (y 2)).trans ?_
  unfold masked
  have e0 : ix1 (n := 16) (j 0) = ix1 (n := 16) (i 0) := congrArg (ix1 (n := 16)) (Fin.ext hj0)
  rw [hx, hj1, e0]

/-- What point `t` writes back is block `t` of `masked` of the arrays as the region finds them: the output block's
    array coordinates are (row, tile · 1024 + r, l), and the input window reads `x` at the same coordinates. -/
theorem flushed_eq (hO : Ok m) (c : Dev nD) (t : Fin (cfgM m hO).N) :
    (dats m hO 0 c).flushed 1 t
      = (((cfgM m hO).win 1).blk t).view.read (Elt F) (masked (V m c main_arg0) (tbl m 0) (tbl m 1)) := by
  show ((cfgM m hO).win 1).cut (grid0.coords t) ((dats m hO 0 c).after 1 t) = _
  rw [after0_1]
  unfold outsAt0
  refine funext fun (y : S1x1024x512.Idx) => ?_
  obtain ⟨e00, e01, e02, e10, e11, e12⟩ := index_facts t
  refine point_value c (grid0.coords t) _ _ _ _ (iblk m hO c 0 t) (tbl m 0) (tbl m 1) (V m c main_arg0) y
    ((((cfgM m hO).win 1).blk t).view.emb y) ?_ ?_ ?_
  · show cc0_transform_1 (grid0.coords t) 0 * 1 + 1 * (y 0).val = _
    have h0 : (y 0).val < 1 := (y 0).isLt
    omega
  · show cc0_transform_1 (grid0.coords t) 1 * 1024 + 1 * (y 1).val = _
    omega
  · show V m c main_arg0 ((((cfgM m hO).win 0).blk t).view.emb (ix3 (0 : Fin 1) (y 1) (y 2))) = _
    congr 1
    funext a
    apply Fin.ext
    have h0 : (y 0).val < 1 := (y 0).isLt
    match a with
    | ⟨0, _⟩ => show cc0_transform_0 (grid0.coords t) 0 * 1 + 1 * 0 = cc0_transform_1 (grid0.coords t) 0 * 1 + 1 * (y 0).val; omega
    | ⟨1, _⟩ => show cc0_transform_0 (grid0.coords t) 1 * 1024 + 1 * (y 1).val = cc0_transform_1 (grid0.coords t) 1 * 1024 + 1 * (y 1).val; omega
    | ⟨2, _⟩ => show cc0_transform_0 (grid0.coords t) 2 * 512 + 1 * (y 2).val = cc0_transform_1 (grid0.coords t) 2 * 512 + 1 * (y 2).val; omega

/-- Every (row, tile) pair is some grid point's block index. -/
theorem point_onto : ∀ (q0 : Fin 16) (q1 : Fin 4), ∃ t : Fin grid0.N, cc0_transform_1 (grid0.coords t) = ![q0.val, q1.val, 0] := by
  decide +kernel

/-- Every array index is in some point's block: `(b, t, d)` lies in the block of row `b`, tile `t / 1024`, at
    inner step `t % 1024`. -/
theorem covered (hO : Ok m) (i : S16x4096x512.Idx) :
    ∃ t : Fin (cfgM m hO).N, ((cfgM m hO).win 1).flush t = true ∧ i ∈ (((cfgM m hO).win 1).blk t).view.set := by
  have hi0 : (i 0).val < 16 := (i 0).isLt
  have hi1 : (i 1).val < 4096 := (i 1).isLt
  have hi2 : (i 2).val < 512 := (i 2).isLt
  obtain ⟨t, ht⟩ := point_onto ⟨(i 0).val, hi0⟩ ⟨(i 1).val / 1024, by omega⟩
  have q0 : cc0_transform_1 (grid0.coords t) 0 = (i 0).val := congrFun ht 0
  have q1 : cc0_transform_1 (grid0.coords t) 1 = (i 1).val / 1024 := congrFun ht 1
  have q2 : cc0_transform_1 (grid0.coords t) 2 = 0 := congrFun ht 2
  refine ⟨t, flush0_1 (adm m hO) t, ?_⟩
  let y : S1x1024x512.Idx := ix3 (0 : Fin 1) ⟨(i 1).val % 1024, Nat.mod_lt _ (by decide)⟩ (i 2)
  have hy : (((cfgM m hO).win 1).blk t).view.emb y = i := by
    funext a
    apply Fin.ext
    match a with
    | ⟨0, _⟩ => show cc0_transform_1 (grid0.coords t) 0 * 1 + 1 * 0 = (i 0).val; omega
    | ⟨1, _⟩ => show cc0_transform_1 (grid0.coords t) 1 * 1024 + 1 * ((i 1).val % 1024) = (i 1).val; omega
    | ⟨2, _⟩ => show cc0_transform_1 (grid0.coords t) 2 * 512 + 1 * (i 2).val = (i 2).val; omega
  exact hy ▸ (((cfgM m hO).win 1).blk t).view.emb_mem_set y

/-- So the result array ends holding `masked` of the input array and the two tables. -/
theorem final (hO : Ok m) (c : Dev nD) :
    (dats m hO 0 c).arrAt 1 (cfgM m hO).N = masked (m ((c : Thread nD τ).loc main_arg0)) (tbl m 0) (tbl m 1) :=
  ((dats m hO 0 c).arrAt_eq_of_cover 1 (masked (V m c main_arg0) (tbl m 0) (tbl m 1)) (fun t _ => flushed_eq m hO c t) (covered m hO)).trans
    (by rw [V_main_arg0])

/-- The run, read: the result array at `masked x start end`, the four arguments unchanged. -/
theorem run (hO : Ok m) : θ_run defs (onTc (τ := τ) (main (F := F))) ⟨m, fun _ => 0, ρ⟩ fun r => ∀ c : Dev nD,
      r.2.mem ((c : Thread nD τ).loc main_v28) = masked (m ((c : Thread nD τ).loc main_arg0)) (tbl m 0) (tbl m 1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 1).trans (final m hO c),
      ((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c)⟩)
    (run_main m ρ hO)

end Cert.KernelIdeal.BodyValue
end
-- ==== Proof.Tables.lean ====
/-
  The two prefetched tables as functions of the arguments.

  Before the region the program computes, per row, from `lengths`, `u` and `s`: the segment length `len`, the
  window's start `start`, whether the row is selected `ap`, then `len' = ap ? len : 0` and `end = start + len'`,
  and hands `start` and `end` to the kernel as its tables. The reference computes `len`, `start` and `ap` by
  the same operations on the same literals, so the tables are stated here through the reference's own stage
  functions (its `%19`, `%8`, `%24`): the first table IS its `start`, and the second is
  `start + (ap ? len : 0)` entry by entry; the three stages enter only through their values at a row.
-/
import proofs.«415380_j40853728920175_1_alg».proof.Proof.Gen.KernelIdeal.Frame
import proofs.«415380_j40853728920175_1_alg».proof.Proof.RefRead
import Idealize.ShloMosaic.Lib.StableHlo.Run
import Idealize.ShloMosaic.Lib.Tactic

set_option maxRecDepth 16384

noncomputable section
open Idealize.ShloMosaic Idealize.ShloMosaic.TcCoe Idealize.SL.Sem Idealize.ShloMosaic.Tactic Idealize.ShloMosaic.StableHlo
namespace Cert.KernelIdeal.Tables
open Cert.KernelIdeal Cert.KernelIdeal.Gen
variable {F : FTy → Type} [FloatOps F]
variable (m : (ℓ : Loc nD τ sig) → Buf (Elt F) ℓ)

set_option maxHeartbeats 2000000 in
/-- The first table is the reference's window start, as a function of `lengths` and `s`. -/
theorem start_eq : (tbl m 0 : IVec S16 32)
    = Cert.ReferenceIdeal.ReadP.val_main_v19 (F := F) (m (((0 : Dev nD) : Thread nD τ).loc main_arg1)) (m (((0 : Dev nD) : Thread nD τ).loc main_arg3)) := by
  unfold tbl
  show V m 0 main_v19 = _
  dsimp only [V]
  simp only [hostOps0, hostOps0_1, hostOps0_2, List.flatten_cons, List.flatten_nil, List.append_nil, List.cons_append, List.nil_append]
  after_results_simp
  rfl

set_option maxHeartbeats 2000000 in
/-- The second table is, entry by entry, the start plus the segment length where the row is selected and plus `0`
    where it is not. -/
theorem end_eq : (tbl m 1 : IVec S16 32)
    = fun r => IntOp.addi
        (Cert.ReferenceIdeal.ReadP.val_main_v19 (F := F) (m (((0 : Dev nD) : Thread nD τ).loc main_arg1)) (m (((0 : Dev nD) : Thread nD τ).loc main_arg3)) r)
        (Scalar.select (Cert.ReferenceIdeal.ReadP.val_main_v24 (F := F) (m (((0 : Dev nD) : Thread nD τ).loc main_arg1)) (m (((0 : Dev nD) : Thread nD τ).loc main_arg2)) r)
          (Cert.ReferenceIdeal.ReadP.val_main_v8 (F := F) (m (((0 : Dev nD) : Thread nD τ).loc main_arg1)) r) 0#32) := by
  unfold tbl
  show V m 0 main_v27 = _
  dsimp only [V]
  simp only [hostOps0, hostOps0_1, hostOps0_2, List.flatten_cons, List.flatten_nil, List.append_nil, List.cons_append, List.nil_append]
  after_results_simp
  rfl

end Cert.KernelIdeal.Tables
end
-- ==== Proof.RefValue.lean ====
/-
  The reference's result at an array index.

  The reference broadcasts three per-row quantities — whether the row is selected `ap`, the window's start and
  the window's end `start + len` — along the time axis, compares them with the time iota, conjoins the three bits,
  broadcasts the result along the feature axis and selects `0` or `x`. Read at the index `(b, t, d)` every
  broadcast reads its operand at row `b` (or at time `t`), so the result there is

      if ap b ∧ start b ≤ t ∧ t < start b + len b then 0 else x (b, t, d)

  with the comparisons signed and on 32-bit words, the per-row stages left as the functions of the arguments they are.
-/
import proofs.«415380_j40853728920175_1_alg».proof.Proof.RefRead
import Idealize.ShloMosaic.Lib.ValueIdx

noncomputable section
open Idealize.ShloMosaic Idealize.ShloMosaic.TcCoe Idealize.SL.Sem Idealize.ShloMosaic.ValueIdx
namespace Cert.ReferenceIdeal.RefValue
open Cert.ReferenceIdeal Cert.ReferenceIdeal.Gen Cert.ReferenceIdeal.ReadP
variable {F : FTy → Type} [FloatOps F]

/-- The selection bit's chain of broadcasts reads it at the array index's row. -/
theorem row_ap (j : S16x4096x512.Idx) : idx_main_v26 (idx_main_v32 (idx_main_v41 (idx_main_call0_v0 j))) = ix1 (n := 16) (j 0) :=
  funext fun a => match a with | ⟨0, _⟩ => rfl
/-- So does the start's, -/
theorem row_st (j : S16x4096x512.Idx) : idx_main_v28 (idx_main_v30 (idx_main_v41 (idx_main_call0_v0 j))) = ix1 (n := 16) (j 0) :=
  funext fun a => match a with | ⟨0, _⟩ => rfl
/-- and the end's. -/
theorem row_en (j : S16x4096x512.Idx) : idx_main_v36 (idx_main_v38 (idx_main_v41 (idx_main_call0_v0 j))) = ix1 (n := 16) (j 0) :=
  funext fun a => match a with | ⟨0, _⟩ => rfl

/-- The result at `(b, t, d)`: `0` when row `b` is selected and `t` lies in its signed window `[start b, start b + len b)`,
    `x (b, t, d)` otherwise. The time iota read through its two broadcasts is the word of `t`. -/
theorem ref_apply (x0 : (⟨S16x4096x512, .f32⟩ : BufTy).Contents (Elt F)) (x1 : (⟨S16, .i32⟩ : BufTy).Contents (Elt F))
    (x2 x3 : (⟨S16, .f32⟩ : BufTy).Contents (Elt F)) (j : S16x4096x512.Idx) :
    val_main_v42 (F := F) x0 x1 x2 x3 j
      = Scalar.select (IntOp.andi (IntOp.andi (val_main_v24 (F := F) x1 x2 (ix1 (n := 16) (j 0)))
            (IntOp.cmpi .sge (BitVec.ofNat 32 (j 1).val) (val_main_v19 (F := F) x1 x3 (ix1 (n := 16) (j 0)))))
          (IntOp.cmpi .slt (BitVec.ofNat 32 (j 1).val)
            (IntOp.addi (val_main_v19 (F := F) x1 x3 (ix1 (n := 16) (j 0))) (val_main_v8 (F := F) x1 (ix1 (n := 16) (j 0))))))
        (FloatOps.ofBits .f32 0x00000000#32) (x0 j) := by
  rw [val_main_v42_apply, val_main_call0_v0_apply, val_main_call0_v1_apply, val_main_cst_6_apply, val_main_v41_apply,
    val_main_v40_apply, val_main_v33_apply, val_main_v32_apply, val_main_v26_apply, val_main_v31_apply, val_main_v29_apply,
    val_main_v27_apply, val_main_v25_apply, val_main_v30_apply, val_main_v28_apply, val_main_v39_apply, val_main_v37_apply,
    val_main_v34_apply, val_main_v25_apply, val_main_v38_apply, val_main_v36_apply, val_main_v35_apply,
    row_ap, row_st, row_en]

end Cert.ReferenceIdeal.RefValue
end
-- ==== Proof.lean ====
/-
  The certificate of a time-masking kernel against its jnp reference, over the extended reals.

  Both programs compute, per row `b` of `x : f32[16, 4096, 512]`, from `lengths`, `u` and `s`: a segment length
  `len b`, a window start `start b`, and whether the row is selected, `ap b` — by the same operations on the same
  literals. The reference zeroes `x (b, t, d)` when `ap b ∧ start b ≤ t < start b + len b`. The kernel instead
  prefetches two tables, `start` and `end = start + (ap ? len : 0)`, and over a 16 × 4 grid of (row, time tile)
  blocks zeroes where `start b ≤ t < end b`. For a selected row the two conditions are the same words; for a row that
  is not selected the kernel's window `[start b, start b)` is empty and the reference's condition is false
  (`window_bit_eq`). No arithmetic on `x` happens on either side, so nothing depends on the inputs being finite, and
  the index maps never read the tables, so the pipeline's side condition on the tables' contents is `True`.

  The kernel's result array is read off its frame run block by block (BodyValue), the tables off the operations
  before the region (Tables), the reference's result off its run one operation at a time (RefValue).
-/
import proofs.«415380_j40853728920175_1_alg».proof.Defs
import proofs.«415380_j40853728920175_1_alg».proof.Proof.Gen.Kernel
import proofs.«415380_j40853728920175_1_alg».proof.Proof.Gen.Kernel.Skeleton
import proofs.«415380_j40853728920175_1_alg».proof.Proof.Gen.Kernel.Launch
import proofs.«415380_j40853728920175_1_alg».proof.Proof.Gen.Kernel.Points
import proofs.«415380_j40853728920175_1_alg».proof.Proof.Gen.Kernel.Frame
import proofs.«415380_j40853728920175_1_alg».proof.Proof.Gen.KernelIdeal
import proofs.«415380_j40853728920175_1_alg».proof.Proof.Gen.KernelIdeal.Skeleton
import proofs.«415380_j40853728920175_1_alg».proof.Proof.Gen.KernelIdeal.Launch
import proofs.«415380_j40853728920175_1_alg».proof.Proof.Gen.KernelIdeal.Points
import proofs.«415380_j40853728920175_1_alg».proof.Proof.Gen.KernelIdeal.Frame
import proofs.«415380_j40853728920175_1_alg».proof.Proof.Gen.ReferenceIdeal
import proofs.«415380_j40853728920175_1_alg».proof.Proof.Gen.Pre_finite_inputs
import proofs.«415380_j40853728920175_1_alg».proof.Proof.WindowMask
import proofs.«415380_j40853728920175_1_alg».proof.Proof.BodyValue
import proofs.«415380_j40853728920175_1_alg».proof.Proof.Tables
import proofs.«415380_j40853728920175_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's whole-array function, with the second table written as `start + (ap ? len : 0)`, is the
    reference's form at every index: the word law, at the index's row and time step. -/
theorem masked_window {F : FTy → Type} [FloatOps F] (X : Vec F Cert.KernelIdeal.S16x4096x512 .f32)
    (st len : IVec Cert.KernelIdeal.S16 32) (ap : IVec Cert.KernelIdeal.S16 1) (j : Cert.KernelIdeal.S16x4096x512.Idx) :
    Cert.KernelIdeal.BodyValue.masked X st (fun r => IntOp.addi (st r) (Scalar.select (ap r) (len r) 0#32)) j
      = Scalar.select (IntOp.andi (IntOp.andi (ap (ix1 (n := 16) (j 0)))
            (IntOp.cmpi .sge (BitVec.ofNat 32 (j 1).val) (st (ix1 (n := 16) (j 0)))))
          (IntOp.cmpi .slt (BitVec.ofNat 32 (j 1).val) (IntOp.addi (st (ix1 (n := 16) (j 0))) (len (ix1 (n := 16) (j 0))))))
        (FloatOps.ofBits .f32 0x00000000#32) (X j) := by
  unfold Cert.KernelIdeal.BodyValue.masked
  dsimp only
  rw [Cert.TimeMask.window_bit_eq]

/-- The word-level kernel runs and keeps its arguments: its frame, the tables' side condition being `True`. -/
theorem frame_k : Cert.frame_Kernel := fun m ρ _ => Cert.Kernel.Gen.frame m ρ trivial

/-- The same for the idealized kernel. -/
theorem frame_ki : Cert.frame_KernelIdeal := fun m ρ _ => Cert.KernelIdeal.Gen.frame m ρ trivial

/-- The reference runs and keeps its arguments: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the four arguments both programs end with the same result array:
    `0` at `(b, t, d)` when row `b` is selected and `t` lies in its window, `x (b, t, d)` otherwise. -/
theorem algebraic : Cert.algebraic_KernelIdeal_ReferenceIdeal := by
  intro m ρ m' ρ' _ hagree
  refine ⟨fun c => Cert.KernelIdeal.BodyValue.masked (m ((c : Thread Cert.KernelIdeal.nD Cert.KernelIdeal.τ).loc Cert.KernelIdeal.main_arg0))
      (Cert.KernelIdeal.Gen.tbl m 0) (Cert.KernelIdeal.Gen.tbl m 1),
    Cert.KernelIdeal.BodyValue.run (F := Ideal) m ρ trivial, ?_⟩
  refine (θ_run Cert.ReferenceIdeal.defs _ _).mono (fun _ h c => ⟨(h c).1.trans ?_, (h c).2⟩)
    (Cert.ReferenceIdeal.ValueP.run (F := Ideal) m' ρ')
  obtain rfl : c = 0 := Subsingleton.elim _ _
  rw [(hagree 0).1, (hagree 0).2.1, (hagree 0).2.2.1, (hagree 0).2.2.2]
  refine (Cert.ReferenceIdeal.ReadP.val_main_v42_eq (F := Ideal) _ _ _ _).trans ?_
  funext j
  refine (Cert.ReferenceIdeal.RefValue.ref_apply (F := Ideal) _ _ _ _ j).trans ?_
  rw [Cert.KernelIdeal.Tables.start_eq, Cert.KernelIdeal.Tables.end_eq]
  exact (masked_window (F := Ideal) _ _ _ _ j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
